-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 1 := constantI S_ 1 1#1
  let main_v6 : IVec S_ 1 := (fun x v => Host.reduce IntOp.andi x v reducesTo_S16777216_S_d0 h_S_) main_v5 main_c_1
  let main_v7 : IVec S_ 1 := andi main_v3 main_v6
  main_v7
-- ==== Kernel.lean ====
abbrev S16777216x2 : Shape := ⟨2, ![16777216, 2]⟩
abbrev S16777216 : Shape := ⟨1, ![16777216]⟩
abbrev S8x2097152 : Shape := ⟨2, ![8, 2097152]⟩
abbrev S2x16777216 : Shape := ⟨2, ![2, 16777216]⟩
abbrev S2x8x2097152 : Shape := ⟨3, ![2, 8, 2097152]⟩
abbrev S1x1 : Shape := ⟨2, ![1, 1]⟩
abbrev S2x8x16384 : Shape := ⟨3, ![2, 8, 16384]⟩
abbrev S8x16384 : Shape := ⟨2, ![8, 16384]⟩
abbrev S1x8x16384 : Shape := ⟨3, ![1, 8, 16384]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S8x2097152, .i32⟩
  | .hbm, ⟨3, _⟩ => ⟨S2x16777216, .f32⟩
  | .hbm, ⟨4, _⟩ => ⟨S2x8x2097152, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2x8x16384, .f32⟩
  | .local _ .vmem, ⟨1, _⟩ => ⟨S2x8x16384, .f32⟩
  | .local _ .vmem, ⟨2, _⟩ => ⟨S8x16384, .i32⟩
  | .local _ .vmem, ⟨3, _⟩ => ⟨S8x16384, .i32⟩
  | .local _ .vmem, ⟨4, _⟩ => ⟨S1x1, .f32⟩
  | .local _ .vmem, ⟨5, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v46 : BitVec 1 := Scalar.cmpi .eq arg0 c127_i32
  let v47 : BitVec 32 := Scalar.extui v46
  let c0_i32_18 : BitVec 32 := 0#32
  let v48 : BitVec 1 := Scalar.cmpi .ne v47 c0_i32_18
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S8x2097152 : S16777216.ShapeCasts S8x2097152
  transposes_S16777216x2_S2x16777216_1_0 : S16777216x2.Transposes [1, 0] S2x16777216
  shapeCasts_S2x16777216_S2x8x2097152 : S2x16777216.ShapeCasts S2x8x2097152
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x8x16384_S2x8x16384_0_0_0 : ∀ a, (![0, 0, 0] : Fin 3 → Nat) a + S2x8x16384.size a ≤ S2x8x16384.size a
  h_S2x8x16384 : 0 < S2x8x16384.numel
  shapeCasts_S2x8x16384_S2x8x16384 : S2x8x16384.ShapeCasts S2x8x16384
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  slices_S2x8x16384_o0_0_0_S1x8x16384 : S2x8x16384.Slices ![0, 0, 0] S1x8x16384
  shapeCasts_S1x8x16384_S8x16384 : S1x8x16384.ShapeCasts S8x16384
  slices_S2x8x16384_o1_0_0_S1x8x16384 : S2x8x16384.Slices ![1, 0, 0] S1x8x16384
  reduces_S8x16384_S8 : S8x16384.Reduces [1] S8
  shapeCasts_S8_S8x1 : S8.ShapeCasts S8x1
  reduces_S8x1_S1 : S8x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x16384.size a ≤ S2x8x2097152.size a
  hwx0_0 : ∀ i : grid0.Coords, EltTy.bits .f32 = 32 ∨ (Rect.block (s := S2x8x2097152) S2x8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S8x2097152.size a
  hwx0_1 : ∀ i : grid0.Coords, EltTy.bits .i32 = 32 ∨ (Rect.block (s := S8x2097152) S8x16384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v2) S2x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S16777216x1 : Shape := ⟨2, ![16777216, 1]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S16777216x1, .f32⟩
  | .hbm, ⟨3, _⟩ => ⟨S16777216, .f32⟩
  | .hbm, ⟨4, _⟩ => ⟨S16777216x1, .f32⟩
  | .hbm, ⟨5, _⟩ => ⟨S16777216, .f32⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S_, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S16777216, .f32⟩
  | .hbm, ⟨21, _⟩ => ⟨S16777216, .f32⟩
  | .hbm, ⟨22, _⟩ => ⟨S16777216, .i1⟩
  | .hbm, ⟨23, _⟩ => ⟨S16777216, .i1⟩
  | .hbm, ⟨24, _⟩ => ⟨S16777216, .i1⟩
  | .hbm, ⟨25, _⟩ => ⟨S_, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S16777216, .f32⟩
  | .hbm, ⟨30, _⟩ => ⟨S16777216, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  slices_S16777216x2_S16777216x1_0_1 : S16777216x2.Slices ![0, 1] S16777216x1
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.LossLaw.lean ====
/-
  The two laws that join the kernel's loss to the reference's, with no program in sight.

  * The penalty test. With the label read as the real number it denotes, the kernel tests
    `(2·label − 1)·(p0 − p1) > 0`; the reference tests `p0 < p1` for label 0 and `p1 < p0` otherwise.
    For real `p0`, `p1` and a label that is not negative these agree: at label 0 the factor is `−1`,
    and from label 1 on it is at least `1`, so the product's sign is that of `p0 − p1`.
    (For a negative label the factor is negative and the two tests are opposite: that is why the
    labels are taken non-negative.)
  * The row sum. A sum over all `2^24` rows is the sum over 128 chunks of 16384 columns, 8 stripes of
    `2^21` rows each: row `stripe·2^21 + chunk·16384 + column`. Only commutativity and associativity
    of addition, so it holds on the extended reals as it stands.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Loss

open Idealize.ShloMosaic

/-! ## The three float words of the loss -/

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_inf : Ideal.ofBits .f32 0x7F800000#32 = (⊤ : EReal) := by
  simp [Ideal.ofBits, Ideal.ieee]

/-! ## The penalty test -/

/-- The kernel's test: the sign of `(2·label − 1)·(p0 − p1)`. -/
def signTest (p0 p1 : EReal) (t : BitVec 32) : BitVec 1 :=
  Ideal.cmp .ogt
    ((Ideal.ofBits .f32 0x40000000#32 * ((t.toInt : ℝ) : EReal) - Ideal.ofBits .f32 0x3F800000#32) * (p0 - p1))
    (Ideal.ofBits .f32 0x00000000#32)

/-- The reference's test: which logit is the wrong one depends on the label being zero. -/
def branchTest (p0 p1 : EReal) (t : BitVec 32) : BitVec 1 :=
  Scalar.select (IntOp.cmpi .eq t 0#32) (Ideal.cmp .olt p0 p1) (Ideal.cmp .olt p1 p0)

theorem signTest_eq_branchTest (a b : ℝ) (t : BitVec 32) (ht : 0 ≤ t.toInt) :
    signTest (a : EReal) (b : EReal) t = branchTest (a : EReal) (b : EReal) t := by
  unfold signTest branchTest
  rw [word_one, word_two, Ideal.ofBits_zero_f32, ← EReal.coe_mul, ← EReal.coe_sub, ← EReal.coe_sub, ← EReal.coe_mul]
  simp only [Ideal.cmp, EReal.coe_pos, EReal.coe_lt_coe_iff]
  by_cases h0 : t = 0#32
  · subst h0
    have hc : IntOp.cmpi .eq (0#32 : BitVec 32) 0#32 = 1#1 := StableHlo.Predicate.cmpi_eq_iff.2 rfl
    rw [hc, ValueIdx.select_one]
    congr 1
    simp only [BitVec.toInt_zero, Int.cast_zero, mul_zero, zero_sub, neg_mul, one_mul, neg_pos, sub_neg, decide_eq_decide]
  · have hc : IntOp.cmpi .eq t 0#32 = 0#1 :=
      ValueIdx.eq_zero_of_ne_one (fun h => h0 (StableHlo.Predicate.cmpi_eq_iff.1 h))
    rw [hc, ValueIdx.select_zero]
    congr 1
    have h1 : (1 : ℤ) ≤ t.toInt := by
      rcases Int.lt_or_eq_of_le ht with h | h
      · omega
      · exact absurd (BitVec.toInt_inj.1 (by rw [BitVec.toInt_zero]; exact h.symm)) h0
    have h1r : (1 : ℝ) ≤ (t.toInt : ℝ) := by exact_mod_cast h1
    have hpos : (0 : ℝ) < 2 * (t.toInt : ℝ) - 1 := by linarith
    rw [decide_eq_decide, mul_pos_iff_of_pos_left hpos, sub_pos]

/-! ## One row's loss -/

/-- The squared error against the one-hot target the label selects: `(1 − p0)² + p1²` for label 0,
    `p0² + (1 − p1)²` otherwise. Spelt the same way by both programs. -/
def sqErr (p0 p1 : EReal) (t : BitVec 32) : EReal :=
  Scalar.select (IntOp.cmpi .eq t 0#32)
    ((Ideal.ofBits .f32 0x3F800000#32 - p0) * (Ideal.ofBits .f32 0x3F800000#32 - p0) + p1 * p1)
    (p0 * p0 + (Ideal.ofBits .f32 0x3F800000#32 - p1) * (Ideal.ofBits .f32 0x3F800000#32 - p1))

/-- One row's loss under a given penalty test: the squared error, plus 2 where the test fires. -/
def rowLoss (test : EReal → EReal → BitVec 32 → BitVec 1) (p0 p1 : EReal) (t : BitVec 32) : EReal :=
  sqErr p0 p1 t + Scalar.select (test p0 p1 t) (Ideal.ofBits .f32 0x40000000#32) (Ideal.ofBits .f32 0x00000000#32)

/-- On real logits and a non-negative label the two programs charge a row the same loss. -/
theorem rowLoss_sign_eq_branch (a b : ℝ) (t : BitVec 32) (ht : 0 ≤ t.toInt) :
    rowLoss signTest (a : EReal) (b : EReal) t = rowLoss branchTest (a : EReal) (b : EReal) t := by
  unfold rowLoss
  rw [signTest_eq_branchTest a b t ht]

/-! ## The mean -/

/-- Both programs end by dividing the total by the number of rows, `2^24` as a float word. -/
def mean (total : EReal) : (⟨0, ![]⟩ : Shape).Idx → EReal :=
  Host.divf (F := Ideal) (fun _ => total) (constant (F := Ideal) (⟨0, ![]⟩ : Shape) .f32 0x4B800000#32)

/-! ## The row sum -/

/-- A sum over `m·n` consecutive numbers, by quotient and remainder. -/
theorem sum_fin_mul (N m n : ℕ) (hN : N = m * n) (f : ℕ → EReal) :
    ∑ k : Fin N, f k.val = ∑ a : Fin m, ∑ b : Fin n, f (a.val * n + b.val) := by
  subst hN
  rw [← Fintype.sum_prod_type']
  refine (Fintype.sum_equiv finProdFinEquiv _ _ (fun x => ?_)).symm
  simp only [finProdFinEquiv_apply_val]
  congr 1
  ring

/-- `a` stripes of `M = b·c` rows, each `b` chunks of `c` columns: the sum over all `a·M` rows, chunk by chunk. -/
theorem sum_stripes (N M a b c : ℕ) (hM : M = b * c) (hN : N = a * M) (f : ℕ → EReal) :
    ∑ k : Fin N, f k.val
      = ∑ t : Fin b, ∑ r : Fin a, ∑ l : Fin c, f (r.val * M + t.val * c + l.val) := by
  have inner : ∀ r : Fin a, ∑ k : Fin M, f (r.val * M + k.val)
      = ∑ t : Fin b, ∑ l : Fin c, f (r.val * M + t.val * c + l.val) := fun r => by
    rw [sum_fin_mul M b c hM (fun k => f (r.val * M + k))]
    simp only [Nat.add_assoc]
  rw [sum_fin_mul N a M hN f]
  simp only [inner]
  exact Finset.sum_comm

/-- All `2^24` rows, as 128 chunks × 8 stripes × 16384 columns. -/
theorem sum_rows (f : ℕ → EReal) :
    ∑ k : Fin 16777216, f k.val
      = ∑ t : Fin 128, ∑ r : Fin 8, ∑ l : Fin 16384, f (r.val * 2097152 + t.val * 16384 + l.val) :=
  sum_stripes 16777216 2097152 8 128 16384 (by norm_num) (by norm_num) f

end Cert.Loss

end
-- ==== Proof.PreRead.lean ====
/-
  What the precondition says of the two inputs, element by element.

  The printed predicate is the conjunction of two `all`s: every entry of `pred` has absolute value below
  `+∞`, and every label is at least `0` as a signed word. Read back: every entry of `pred` is a real
  number (an extended real whose absolute value is below `+∞` is neither infinity), and every label's
  signed value is non-negative.
-/
import proofs.«431369_j30743375905383_4_alg».proof.Pre_finite_inputs
import proofs.«431369_j30743375905383_4_alg».proof.Proof.LossLaw
import Idealize.ShloMosaic.Lib.ReduceAll
import Idealize.ShloMosaic.Lib.ValueIdx
import Idealize.ShloMosaic.Lib.StableHlo.Predicate
import Idealize.ShloMosaic.PureOps.Ideal.Laws

noncomputable section

namespace Cert.Loss

open Idealize.ShloMosaic Cert.Pre_finite_inputs

variable [Cert.Pre_finite_inputs.Facts]

instance : Subsingleton Cert.Pre_finite_inputs.S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The precondition, read: `pred` holds real numbers and no label is negative. -/
theorem pre_read (x0 : FVec Ideal S16777216x2 .f32) (x1 : IVec S16777216 32)
    (h : Cert.Pre_finite_inputs.fn (F := Ideal) x0 x1 = fun _ => 1#1) :
    (∀ i : S16777216x2.Idx, ∃ r : ℝ, x0 i = (r : EReal)) ∧ (∀ j : S16777216.Idx, 0 ≤ (x1 j).toInt) := by
  have h0 := congrFun h ValueIdx.ix0
  dsimp only [Cert.Pre_finite_inputs.fn] at h0
  obtain ⟨hA, hB⟩ := IntOp.andi_eq_one.1 h0
  refine ⟨fun i => ?_, fun j => ?_⟩
  · have e := Host.reduce_andi_all _ _ _ _ _ hA i
    have hb := StableHlo.Predicate.bcast_scalar (t := S16777216x2) Facts.bcast_S_S16777216x2 Facts.h_S_
      (constant (F := Ideal) S_ .f32 0x7F800000#32) i
    have e' : Ideal.cmp .olt (max (x0 i) (-(x0 i))) (Ideal.ofBits .f32 0x7F800000#32) = 1#1 := by
      have e2 : FloatOps.cmpf .olt (FloatOps.hostAbsf (x0 i))
          (broadcastInDim S16777216x2 ![] Facts.bcast_S_S16777216x2 (constant (F := Ideal) S_ .f32 0x7F800000#32) i) = 1#1 := e
      rw [hb] at e2
      exact e2
    rw [word_inf] at e'
    simp only [Ideal.cmp, StableHlo.Predicate.ofBool_eq_one_iff, decide_eq_true_eq] at e'
    exact real_of_abs_lt_top _ e'
  · have e := Host.reduce_andi_all _ _ _ _ _ hB j
    have hb := StableHlo.Predicate.bcast_scalar (t := S16777216) Facts.bcast_S_S16777216 Facts.h_S_
      (constantI S_ 32 0#32) j
    have e' : IntOp.cmpi .sge (x1 j) 0#32 = 1#1 := by
      have e2 : IntOp.cmpi .sge (x1 j)
          (broadcastInDim S16777216 ![] Facts.bcast_S_S16777216 (constantI S_ 32 0#32) j) = 1#1 := e
      rw [hb] at e2
      exact e2
    have := IntOp.cmpi_sge.1 e'
    simpa using this

end Cert.Loss

end
-- ==== Proof.RefValue.lean ====
/-
  The reference, read: its result is the mean over all rows of the row's loss, with the reference's own
  penalty test (`p0 < p1` for label 0, `p1 < p0` otherwise). Row `n` reads `pred[n, 0]`, `pred[n, 1]` and
  `target[n]`; the host's sum over the one axis is `0 + ∑` on the extended reals.
-/
import proofs.«431369_j30743375905383_4_alg».proof.Proof.Gen.ReferenceIdeal.Read
import proofs.«431369_j30743375905383_4_alg».proof.Proof.LossLaw
import Idealize.ShloMosaic.Lib.ValueIdx
import Idealize.ShloMosaic.PureOps.Ideal.Laws

noncomputable section

namespace Cert.ReferenceIdeal.LossValue

open Cert.ReferenceIdeal Cert.ReferenceIdeal.Gen Cert.ReferenceIdeal.Read Idealize.ShloMosaic Idealize.ShloMosaic.ValueIdx Cert.Loss

/-- The rows, as the index type of the one-axis arrays. -/
def rowEquiv : S16777216.Idx ≃ Fin 16777216 where
  toFun j := j 0
  invFun n := ix1 n
  left_inv j := (eq_ix1 j).symm
  right_inv _ := rfl

/-- Row `n`'s term of the reference's sum. -/
theorem rowTerm_apply (x0 : (⟨S16777216x2, .f32⟩ : BufTy).Contents (Elt Ideal)) (x1 : (⟨S16777216, .i32⟩ : BufTy).Contents (Elt Ideal))
    (n : Fin 16777216) :
    val_main_v21 (F := Ideal) x0 x1 (ix1 n)
      = rowLoss branchTest (x0 (ix2 n (0 : Fin 2))) (x0 (ix2 n (1 : Fin 2))) (x1 (ix1 n)) := by
  have i0 : idx_main_v0 (idx_main_v1 (ix1 n)) = ix2 n (0 : Fin 2) := funext fun a => Fin.ext (by
    match a with
    | ⟨0, _⟩ => exact Nat.div_one _
    | ⟨1, _⟩ => rfl)
  have i1 : idx_main_v2 (idx_main_v3 (ix1 n)) = ix2 n (1 : Fin 2) := funext fun a => Fin.ext (by
    match a with
    | ⟨0, _⟩ => exact Nat.div_one _
    | ⟨1, _⟩ => rfl)
  simp only [val_main_v21_apply, val_main_v16_apply, val_main_v20_apply, val_main_v19_apply, val_main_v5_apply,
    val_main_v4_apply, val_main_c_apply, val_main_v10_apply, val_main_v8_apply, val_main_v7_apply, val_main_v6_apply,
    val_main_cst_apply, val_main_v9_apply, val_main_v15_apply, val_main_v11_apply, val_main_v14_apply, val_main_v13_apply,
    val_main_v12_apply, val_main_cst_0_apply, val_main_v17_apply, val_main_v18_apply, val_main_call2_v0_apply,
    val_main_cst_1_apply, val_main_call2_v1_apply, val_main_cst_2_apply, val_main_v1_apply, val_main_v0_apply,
    val_main_v3_apply, val_main_v2_apply, i0, i1]
  rfl

/-- The reference's result: the mean of the rows' losses. -/
theorem result_eq (x0 : (⟨S16777216x2, .f32⟩ : BufTy).Contents (Elt Ideal)) (x1 : (⟨S16777216, .i32⟩ : BufTy).Contents (Elt Ideal)) :
    val_main_v23 (F := Ideal) x0 x1
      = mean (∑ n : Fin 16777216, rowLoss branchTest (x0 (ix2 n (0 : Fin 2))) (x0 (ix2 n (1 : Fin 2))) (x1 (ix1 n))) := by
  have hsum : val_main_v22 (F := Ideal) x0 x1
      = fun _ => ∑ n : Fin 16777216, rowLoss branchTest (x0 (ix2 n (0 : Fin 2))) (x0 (ix2 n (1 : Fin 2))) (x1 (ix1 n)) := by
    funext i
    rw [val_main_v22_apply, val_main_cst_3_apply]
    have hz : (FloatOps.ofBits (F := Ideal) .f32 0x00000000#32 : EReal) = 0 := Ideal.ofBits_zero_f32
    rw [hz, zero_add]
    refine (Fintype.sum_equiv rowEquiv _ _ (fun j => ?_))
    rw [eq_ix1 j]
    exact rowTerm_apply x0 x1 (j 0)
  unfold val_main_v23 mean
  rw [hsum]
  rfl

end Cert.ReferenceIdeal.LossValue

end
-- ==== Proof.Pieces.lean ====
/-
  What one run of the body leaves behind, case by case, as values.

  The accumulator is a [1,1] scratch the kernel keeps between grid points. At the first point the body
  stores zero into it, reads that back and stores `zero + s`, where `s` is the point's tile total; at every
  later point it stores `previous + s`. At the last point it also copies the accumulator, as just updated,
  into the output block. Each of these is a single whole store of a [1,1] vector, so what the buffer holds
  afterwards is that store's value.
-/
import proofs.«431369_j30743375905383_4_alg».proof.Proof.Gen.KernelIdeal.Frame
import Idealize.ShloMosaic.Lib.Pipeline.Value
import Idealize.ShloMosaic.Lib.Tactic

noncomputable section

namespace Cert.KernelIdeal.LossValue

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- The accumulator after one more tile: `previous + s`. -/
abbrev bump (acc : Vec F S1x1 .f32) (x0 : Vec F S2x8x16384 .f32) (x1 : Vec F S8x16384 .i32) : Vec F S1x1 .f32 :=
  k0_pay1 (k0_pay3 x0 x1) acc

/-- A later point that is not the last: the accumulator goes from `acc` to `acc + s`. -/
theorem scratch_B (c : Dev nD) (i : grid0.Coords) (a1 : Memref sig .tc .vmem S2x8x16384 .f32) (h1 : a1.IsWhole) (a2 : Memref sig .tc .vmem S8x16384 .i32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i)
    (x0 : Vec F S2x8x16384 .f32) (x1 : Vec F S8x16384 .i32) (acc : Vec F S1x1 .f32) :
    sout0_B_0 c i a1 h1 a2 h2 a3 h3 a4 h4 hc0 hc1 x0 x1 acc = bump acc x0 x1 := by
  unfold sout0_B_0
  rw [View.read_writes_eq_canon _ _ _ (scover0_B_0 c i a1 h1 a2 h2 a3 h3 a4 h4 hc0 hc1 x0 x1 acc)]
  unfold kernelRun0_B
  dsimp only
  sl_unfold_words
  rw [View.canon_unit_zero zero_offsets]
  simp only [View.readAt_eq_ld, h1.read_unread, h2.read_unread, h4.read_unread, View.ld_unit_zero (S := S1x1) zero_offsets,
    View.ld_unit_zero (S := S2x8x16384) (show (![0, 0, 0] : Fin 3 → Nat) = fun _ => 0 from funext fun a => by fin_cases a <;> rfl),
    View.ld_unit_zero (S := S8x16384) zero_offsets]

/-- The last point: the accumulator goes from `acc` to `acc + s` as at any later point, -/
theorem scratch_C (c : Dev nD) (i : grid0.Coords) (a1 : Memref sig .tc .vmem S2x8x16384 .f32) (h1 : a1.IsWhole) (a2 : Memref sig .tc .vmem S8x16384 .i32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S2x8x16384 .f32) (x1 : Vec F S8x16384 .i32) (acc : Vec F S1x1 .f32) :
    sout0_C_0 c i a1 h1 a2 h2 a3 h3 a4 h4 hc0 hc1 x0 x1 acc = bump acc x0 x1 := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero zero_offsets]
  simp only [View.readAt_eq_ld, h1.read_unread, h2.read_unread, h4.read_unread, View.ld_unit_zero (S := S1x1) zero_offsets,
    View.ld_unit_zero (S := S2x8x16384) (show (![0, 0, 0] : Fin 3 → Nat) = fun _ => 0 from funext fun a => by fin_cases a <;> rfl),
    View.ld_unit_zero (S := S8x16384) zero_offsets]

/-- and the output block receives that updated accumulator. -/
theorem out_C (c : Dev nD) (i : grid0.Coords) (a1 : Memref sig .tc .vmem S2x8x16384 .f32) (h1 : a1.IsWhole) (a2 : Memref sig .tc .vmem S8x16384 .i32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i)
    (x0 : Vec F S2x8x16384 .f32) (x1 : Vec F S8x16384 .i32) (acc : Vec F S1x1 .f32) :
    out0_C_2 c i a1 h1 a2 h2 a3 h3 a4 h4 hc0 hc1 x0 x1 acc = bump acc x0 x1 := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero zero_offsets]
  simp only [View.readAt_eq_ld, h1.read_unread, h2.read_unread, h4.read_unread, View.ld_unit_zero (S := S1x1) zero_offsets,
    View.readCov_unit_zero (S := S1x1) _ zero_offsets,
    View.ld_unit_zero (S := S2x8x16384) (show (![0, 0, 0] : Fin 3 → Nat) = fun _ => 0 from funext fun a => by fin_cases a <;> rfl),
    View.ld_unit_zero (S := S8x16384) zero_offsets]

/-- The first point: the accumulator is reset to zero and then updated, so it ends at `zero + s`. -/
theorem scratch_A (c : Dev nD) (i : grid0.Coords) (a1 : Memref sig .tc .vmem S2x8x16384 .f32) (h1 : a1.IsWhole) (a2 : Memref sig .tc .vmem S8x16384 .i32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i)
    (x0 : Vec F S2x8x16384 .f32) (x1 : Vec F S8x16384 .i32) :
    sout0_A_0 c i a1 h1 a2 h2 a3 h3 a4 h4 hc0 hc1 x0 x1 = bump (k0_pay2 (F := F)) x0 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread, h4.read_unread, View.ld_unit_zero (S := S1x1) zero_offsets,
    View.readCov_unit_zero (S := S1x1) _ zero_offsets,
    View.ld_unit_zero (S := S2x8x16384) (show (![0, 0, 0] : Fin 3 → Nat) = fun _ => 0 from funext fun a => by fin_cases a <;> rfl),
    View.ld_unit_zero (S := S8x16384) zero_offsets]

end Cert.KernelIdeal.LossValue

end
-- ==== Proof.BlockSum.lean ====
/-
  What one grid point adds to the accumulator: the body's one computed value, a [1,1] vector, holds the
  sum over the point's 8 × 16384 tile of each entry's loss — entry (r, l) of the tile read from the two
  logit planes of the `pred` block at (0, r, l) and (1, r, l) and from the label block at (r, l).
  The lane sum and the sublane sum are plain sums on the extended reals (their accumulators are zero);
  the casts between [8], [8,1], [1] and [1,1] move nothing.
-/
import proofs.«431369_j30743375905383_4_alg».proof.Proof.Gen.KernelIdeal.Skeleton
import proofs.«431369_j30743375905383_4_alg».proof.Proof.LossLaw
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LossValue

open Cert.KernelIdeal Cert.KernelIdeal.Gen Idealize.ShloMosaic Idealize.ShloMosaic.ValueIdx Cert.Loss

/-- Entry (r, l) of the tile of per-row losses, from the point's `pred` block and label block. -/
def tileLoss (x0 : Vec Ideal S2x8x16384 .f32) (x1 : Vec Ideal S8x16384 .i32) (r : Fin 8) (l : Fin 16384) : EReal :=
  rowLoss signTest (x0 (ix3 (0 : Fin 2) r l)) (x0 (ix3 (1 : Fin 2) r l)) (x1 (ix2 r l))

/-- A lane sum with the zero accumulator, read at row `r`. -/
theorem laneSum_apply (src : FVec Ideal S8x16384 .f32) (h : S8x16384.Reduces [1] S8)
    (hφ : FKind.Formats FTy.f32) (hacc : (0x00000000#32 : BitVec 32) = FKind.add.neutral FTy.f32 hφ) (r : Fin 8) :
    multiReduction (F := Ideal) .add [1] S8 src 0x00000000#32 h hφ hacc (ix1 r) = ∑ l : Fin 16384, src (ix2 r l) :=
  (Ideal.multiReduction_add_single src 0x00000000#32 h hφ hacc (ix1 r)).trans
    (Finset.sum_congr rfl fun l _ => congrArg src (funext fun a => by
      match a with
      | ⟨0, _⟩ => rfl
      | ⟨1, _⟩ => rfl))

/-- A sublane sum of a column with the zero accumulator. -/
theorem sublaneSum_apply (src : FVec Ideal S8x1 .f32) (h : S8x1.Reduces [0] S1)
    (hφ : FKind.Formats FTy.f32) (hacc : (0x00000000#32 : BitVec 32) = FKind.add.neutral FTy.f32 hφ) (u : Fin 1) :
    multiReduction (F := Ideal) .add [0] S1 src 0x00000000#32 h hφ hacc (ix1 u) = ∑ r : Fin 8, src (ix2 r (0 : Fin 1)) :=
  (Ideal.multiReduction_add_single src 0x00000000#32 h hφ hacc (ix1 u)).trans
    (Finset.sum_congr rfl fun r _ => congrArg src (funext fun a => by
      match a with
      | ⟨0, _⟩ => rfl
      | ⟨1, _⟩ => exact Fin.ext (by have := u.isLt; show u.val = 0; omega)))

/-- [8] → [8,1]: the column's entry (r, 0) is the vector's entry r. -/
theorem col_apply {α : Type} (v : S8.Idx → α) (h : S8.ShapeCasts S8x1) (r : Fin 8) :
    shapeCast S8x1 v h (ix2 r (0 : Fin 1)) = v (ix1 r) :=
  shapeCast_apply v h _ _ (by
    rw [Shape.rowMajor_val_one, Shape.rowMajor_val_two]
    show r.val = r.val * 1 + 0
    omega)

/-- [1] → [1,1]: the one entry. -/
theorem one_apply {α : Type} (v : S1.Idx → α) (h : S1.ShapeCasts S1x1) (j : S1x1.Idx) :
    shapeCast S1x1 v h j = v (ix1 (0 : Fin 1)) :=
  shapeCast_apply v h _ _ (by
    rw [Shape.rowMajor_val_one, Shape.rowMajor_val_two]
    have h0 : (j 0).val < 1 := (j 0).isLt
    have h1 : (j 1).val < 1 := (j 1).isLt
    show 0 = (j 0).val * 1 + (j 1).val
    omega)

/-- Plane `p` of the `pred` block as an [8,16384] tile: entry (r, l) is the block's entry (p, r, l). -/
theorem plane_apply (x0 : FVec Ideal S2x8x16384 .f32) (p : Fin 2) (off : Fin 3 → Nat) (hoff : off = ![p.val, 0, 0])
    (hs : S2x8x16384.Slices off S1x8x16384) (hc : S1x8x16384.ShapeCasts S8x16384) (r : Fin 8) (l : Fin 16384) :
    shapeCast S8x16384 (extractStridedSlice S1x8x16384 off x0 hs) hc (ix2 r l) = x0 (ix3 p r l) := by
  subst hoff
  refine (shapeCast_1ab_ab_apply _ hc r l).trans ?_
  exact extractStridedSlice_apply _ x0 hs _ (ix3 p r l) (fun a => by
    match a with
    | ⟨0, _⟩ => show p.val = p.val + 0; omega
    | ⟨1, _⟩ => show r.val = 0 + r.val; omega
    | ⟨2, _⟩ => show l.val = 0 + l.val; omega)

/-- The body's computed value: the tile's total. -/
theorem blockSum_apply (x0 : Vec Ideal S2x8x16384 .f32) (x1 : Vec Ideal S8x16384 .i32) (j : S1x1.Idx) :
    k0_pay3 (F := Ideal) x0 x1 j = ∑ r : Fin 8, ∑ l : Fin 16384, tileLoss x0 x1 r l := by
  unfold k0_pay3
  dsimp only
  refine (one_apply _ _ j).trans ?_
  refine (sublaneSum_apply _ _ _ _ (0 : Fin 1)).trans ?_
  refine Finset.sum_congr rfl fun r _ => ?_
  refine (col_apply _ _ r).trans ?_
  refine (laneSum_apply _ _ _ _ r).trans ?_
  refine Finset.sum_congr rfl fun l _ => ?_
  have e0 : shapeCast S8x16384 (extractStridedSlice S1x8x16384 ![0, 0, 0] x0 slices_S2x8x16384_o0_0_0_S1x8x16384)
      shapeCasts_S1x8x16384_S8x16384 (ix2 r l) = x0 (ix3 (0 : Fin 2) r l) := plane_apply x0 (0 : Fin 2) _ rfl _ _ r l
  have e1 : shapeCast S8x16384 (extractStridedSlice S1x8x16384 ![1, 0, 0] x0 slices_S2x8x16384_o1_0_0_S1x8x16384)
      shapeCasts_S1x8x16384_S8x16384 (ix2 r l) = x0 (ix3 (1 : Fin 2) r l) := plane_apply x0 (1 : Fin 2) _ rfl _ _ r l
  unfold tileLoss rowLoss sqErr signTest
  simp only [addf_apply, mulf_apply, subf_apply, select_apply, cmpf_apply, sitofp_apply, broadcast_apply,
    shapeCast_self, e0, e1]
  rfl

end Cert.KernelIdeal.LossValue

end
-- ==== Proof.Accum.lean ====
/-
  The accumulator, point by point, and its closed form.

  After point 0 the scratch holds `zero + s₀`; after point n + 1 it holds what point n left plus `sₙ₊₁`,
  where `sₜ` is point t's tile total (of the `pred` block and the label block the pipeline staged at t).
  By induction on the point this is the generated description of the scratch after each point; read on the
  extended reals it is the sum of the tile totals up to that point.
-/
import proofs.«431369_j30743375905383_4_alg».proof.Proof.Pieces
import proofs.«431369_j30743375905383_4_alg».proof.Proof.BlockSum

noncomputable section

namespace Cert.KernelIdeal.LossValue

open Cert.KernelIdeal Cert.KernelIdeal.Gen Idealize.ShloMosaic Idealize.ShloMosaic.TcCoe Idealize.SL.Sem
open Idealize.ShloMosaic.ValueIdx Cert.Loss

section fold

variable {F : FTy → Type} [FloatOps F]
variable (m : (ℓ : Loc nD τ sig) → Buf (Elt F) ℓ)

/-- The `pred` block and the label block at point `t`, at their literal types. -/
abbrev predBlk (c : Dev nD) (t : Fin cfg0.N) : Vec F S2x8x16384 .f32 := iblk m c 0 t
abbrev labBlk (c : Dev nD) (t : Fin cfg0.N) : Vec F S8x16384 .i32 := iblk m c 1 t

/-- The accumulator after point `n`: reset-and-add at the first point, add afterwards. -/
def accAfter (c : Dev nD) : (n : ℕ) → n < cfg0.N → Vec F S1x1 .f32
  | 0, h => bump (k0_pay2 (F := F)) (predBlk m c ⟨0, h⟩) (labBlk m c ⟨0, h⟩)
  | n + 1, h => bump (accAfter c n (Nat.lt_of_succ_lt h)) (predBlk m c ⟨n + 1, h⟩) (labBlk m c ⟨n + 1, h⟩)

/-- The scratch the kernel carries holds the accumulator after every point. -/
theorem scratch_eq (c : Dev nD) : ∀ (n : ℕ) (h : n < cfg0.N), (outsAt0 m c n h).2 = accAfter m c n h
  | 0, h => by
    rw [outsAt0_A m c ⟨0, h⟩ rfl (by show ¬(0 : ℕ) % 128 = 127; decide)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      refine (scratch_C c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show bump (outsAt0 m c n (Nat.lt_of_succ_lt h)).2 _ _ = bump (accAfter m c n (Nat.lt_of_succ_lt h)) _ _
      rw [scratch_eq c n]
    · rw [outsAt0_B m c ⟨n + 1, h⟩ h0 h1]
      dsimp only
      refine (scratch_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show bump (outsAt0 m c n (Nat.lt_of_succ_lt h)).2 _ _ = bump (accAfter m c n (Nat.lt_of_succ_lt h)) _ _
      rw [scratch_eq c n]

/-- The last point is point 127. -/
theorem last_lt : 127 < cfg0.N := by rw [show cfg0.N = 128 from N_0]; decide

/-- At the last point the output block receives the accumulator as just updated. -/
theorem out_last (c : Dev nD) : (outsAt0 m c 127 last_lt).1 = accAfter m c 127 last_lt := by
  have h0 : ¬(⟨127, last_lt⟩ : Fin cfg0.N).val % 128 = 0 := by decide
  have h1 : (⟨127, last_lt⟩ : Fin cfg0.N).val % 128 = 127 := by decide
  rw [outsAt0_C m c ⟨127, last_lt⟩ h0 h1]
  dsimp only
  refine (out_C c (grid0.coords ⟨127, last_lt⟩) (ms0_0 ⟨127, last_lt⟩) (hs0_0 ⟨127, last_lt⟩) (ms0_1 ⟨127, last_lt⟩) (hs0_1 ⟨127, last_lt⟩)
    (ms0_2 ⟨127, last_lt⟩) (hs0_2 ⟨127, last_lt⟩) scM0_0 (Memref.isWhole_whole _) _ _ (iblk m c 0 ⟨127, last_lt⟩) (iblk m c 1 ⟨127, last_lt⟩)
    (outsAt0 m c 126 (Nat.lt_of_succ_lt last_lt)).2).trans ?_
  show bump (outsAt0 m c 126 (Nat.lt_of_succ_lt last_lt)).2 _ _ = bump (accAfter m c 126 (Nat.lt_of_succ_lt last_lt)) _ _
  rw [scratch_eq m c 126]

end fold

/-! ## On the extended reals: the sum of the tile totals -/

variable (m : (ℓ : Loc nD τ sig) → Buf (Elt Ideal) ℓ)

/-- Point `k`'s tile total (zero past the grid). -/
def tileTotal (c : Dev nD) (k : ℕ) : EReal :=
  if hk : k < cfg0.N then ∑ r : Fin 8, ∑ l : Fin 16384, tileLoss (predBlk m c ⟨k, hk⟩) (labBlk m c ⟨k, hk⟩) r l else 0

theorem bump_apply (acc : Vec Ideal S1x1 .f32) (x0 : Vec Ideal S2x8x16384 .f32) (x1 : Vec Ideal S8x16384 .i32) (j : S1x1.Idx) :
    bump acc x0 x1 j = acc j + ∑ r : Fin 8, ∑ l : Fin 16384, tileLoss x0 x1 r l := by
  unfold bump k0_pay1
  rw [shapeCast_self, addf_apply, blockSum_apply]

theorem reset_apply (j : S1x1.Idx) : k0_pay2 (F := Ideal) j = 0 := by
  unfold k0_pay2
  rw [shapeCast_self]
  exact Ideal.ofBits_zero_f32

/-- The accumulator after point `n` is the sum of the tile totals of points `0 … n`. -/
theorem accAfter_apply (c : Dev nD) (j : S1x1.Idx) : ∀ (n : ℕ) (h : n < cfg0.N),
    accAfter m c n h j = ∑ k ∈ Finset.range (n + 1), tileTotal m c k
  | 0, h => by
    rw [Finset.sum_range_one]
    unfold accAfter tileTotal
    rw [bump_apply, reset_apply, zero_add, dif_pos h]
  | n + 1, h => by
    rw [Finset.sum_range_succ, ← accAfter_apply c j n (Nat.lt_of_succ_lt h)]
    show bump (accAfter m c n (Nat.lt_of_succ_lt h)) _ _ j = _
    rw [bump_apply]
    unfold tileTotal
    rw [dif_pos h]

end Cert.KernelIdeal.LossValue

end
-- ==== Proof.OutArray.lean ====
/-
  The output array after the region.

  The output window's one [1,1] block sits at block index (0, 0) at every grid point, and is the whole
  array. The pipeline writes it back only after the last point, when its staging buffer holds the
  accumulator after all 128 points; so that is what the array ends holding.
-/
import proofs.«431369_j30743375905383_4_alg».proof.Proof.Accum
import Idealize.ShloMosaic.Lib.Pipeline.Value

noncomputable section

namespace Cert.KernelIdeal.LossValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- A [1,1] array has one index. -/
instance : Subsingleton S1x1.Idx := ⟨fun a b => funext fun d => Fin.ext (by
  have hs : S1x1.size d = 1 := by
    match d with
    | ⟨0, _⟩ => rfl
    | ⟨1, _⟩ => rfl
  have ha : (a d).val < S1x1.size d := (a d).isLt
  have hb : (b d).val < S1x1.size d := (b d).isLt
  omega)⟩

/-- The accumulator after the last point, as contents of the output array. -/
abbrev total (c : Dev nD) : Buf (Elt F) ((c : Thread nD τ).loc main_v3) := accAfter m c 127 last_lt

/-- The output block sits at block index (0, 0) at every point. -/
theorem out_index : ∀ t : Fin cfg0.N, win0_2.index t 0 = 0 ∧ win0_2.index t 1 = 0 :=
  (by decide +kernel : ∀ t : Fin grid0.N, win0_2.index t 0 = 0 ∧ win0_2.index t 1 = 0)

/-- What the output's staging buffer holds after the point numbered 127. -/
theorem out_at_last (c : Dev nD) (n : ℕ) (hn : n < cfg0.N) (e : n = 127) : (outsAt0 m c n hn).1 = total m c := by
  subst e
  exact out_last m c

/-- The one write-back, after the last point, writes the accumulator. -/
theorem flushed_eq (c : Dev nD) (t : Fin cfg0.N) (hf : (cfg0.win 2).flush t = true) :
    (dats m 0 c).flushed 2 t = ((cfg0.win 2).blk t).view.read (Elt F) (total m c) := by
  have hN : cfg0.N = 128 := N_0
  have h127 : t.val = 127 := by have := (flush0_2 t).mp hf; have := t.isLt; omega
  show (cfg0.win 2).cut (grid0.coords t) ((dats m 0 c).after 2 t) = _
  rw [after0_2, out_at_last m c t.val t.isLt h127]
  funext j
  rw [View.read_apply]
  exact congrArg (total m c) (@Subsingleton.elim S1x1.Idx _ _ _)

/-- Every index of the output array is in the block of every point. -/
theorem mem_out_blk (t : Fin cfg0.N) (i : S1x1.Idx) : i ∈ ((cfg0.win 2).blk t).view.set := by
  show i ∈ ((View.whole main_v3).slice (win0_2.rect t)).set
  rw [View.set_slice_whole, Rect.mem_set_unit]
  obtain ⟨i0, i1⟩ := out_index t
  intro a
  match a with
  | ⟨0, _⟩ =>
    show win0_2.index t 0 * S1x1.size 0 ≤ (i 0).val ∧ (i 0).val < win0_2.index t 0 * S1x1.size 0 + S1x1.size 0
    rw [i0]
    have h : (i 0).val < 1 := (i 0).isLt
    show 0 * 1 ≤ (i 0).val ∧ (i 0).val < 0 * 1 + 1
    omega
  | ⟨1, _⟩ =>
    show win0_2.index t 1 * S1x1.size 1 ≤ (i 1).val ∧ (i 1).val < win0_2.index t 1 * S1x1.size 1 + S1x1.size 1
    rw [i1]
    have h : (i 1).val < 1 := (i 1).isLt
    show 0 * 1 ≤ (i 1).val ∧ (i 1).val < 0 * 1 + 1
    omega

/-- So the output array ends at the accumulator after the last point. -/
theorem final_out (c : Dev nD) : (dats m 0 c).arrAt 2 cfg0.N = total m c :=
  (dats m 0 c).arrAt_eq_of_cover 2 (total m c) (flushed_eq m c) fun i =>
    ⟨⟨127, last_lt⟩, (flush0_2 ⟨127, last_lt⟩).mpr (by decide), mem_out_blk ⟨127, last_lt⟩ i⟩

end Cert.KernelIdeal.LossValue

end
-- ==== Proof.Tail.lean ====
/-
  After the region: the host reshapes the [1,1] output to a scalar and divides it by the row count, so the
  program's result is that quotient of the accumulator after the last point.
-/
import proofs.«431369_j30743375905383_4_alg».proof.Proof.OutArray
import Idealize.ShloMosaic.Lib.StableHlo.Run
import Idealize.ShloMosaic.Lib.Tactic

noncomputable section

namespace Cert.KernelIdeal.LossValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The valuation the host tail starts from has the output array at the accumulator after the last point. -/
theorem out_after_region (c : Dev nD) :
    Pipeline.withArrays spec0 c (V0 m c) (fun w => (dats m 0 c).arrAt w cfg0.N) (Proc.devRef .tc main_v3) = total m c :=
  (Pipeline.withArrays_arr spec0 launch0.win.arr_inj c (V0 m c) (fun w => (dats m 0 c).arrAt w cfg0.N) 2).trans (final_out m c)

/-- The program's result after the host tail. -/
theorem tail_eq (c : Dev nD) :
    Pipeline.afterTail₀ cfgs (dats m) 0 (V0 m) [hostOps1] c main_v5
      = Host.divf (shapeCast S_ (total m c) shapeCasts_S1x1_S_) (constant S_ .f32 0x4B800000#32) := by
  unfold Pipeline.afterTail₀
  show StableHlo.after hostOps1 (Pipeline.withArrays spec0 c (V0 m c) (fun w => (dats m 0 c).arrAt w cfg0.N)) (Proc.devRef .tc main_v5) = _
  after_results
  rw [out_after_region m c]
  rfl

end Cert.KernelIdeal.LossValue

end
-- ==== Proof.KernelValue.lean ====
/-
  The kernel's run, read: the result is the accumulator after the last point, reshaped to a scalar and
  divided by the row count; on the extended reals, the mean of the sum of the 128 tile totals.
-/
import proofs.«431369_j30743375905383_4_alg».proof.Proof.Tail

noncomputable section

namespace Cert.KernelIdeal.LossValue

open Cert.KernelIdeal Cert.KernelIdeal.Gen Idealize.ShloMosaic Idealize.ShloMosaic.TcCoe Idealize.SL.Sem
open Idealize.ShloMosaic.Pipeline (Dat)
open Idealize.ShloMosaic.ValueIdx Cert.Loss

section run

variable {F : FTy → Type} [FloatOps F]
variable (m : (ℓ : Loc nD τ sig) → Buf (Elt F) ℓ) (ρ : Dev nD → PrngReg)

/-- Every execution ends with the result at the quotient's term and the two inputs unchanged. -/
theorem run : θ_run defs (onTc (τ := τ) (main (F := F))) ⟨m, fun _ => 0, ρ⟩ fun r => ∀ c : Dev nD,
      r.2.mem ((c.tc : Thread nD τ).loc main_v5)
          = Host.divf (shapeCast S_ (total m c) shapeCasts_S1x1_S_) (constant S_ .f32 0x4B800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end run

/-! ## On the extended reals -/

variable (m : (ℓ : Loc nD τ sig) → Buf (Elt Ideal) ℓ)

/-- The scalar the host reshapes the output to: the sum of the 128 tile totals. -/
theorem scalar_eq (c : Dev nD) :
    shapeCast S_ (total m c) shapeCasts_S1x1_S_ = fun _ => ∑ k ∈ Finset.range 128, tileTotal m c k := by
  funext i
  refine (shapeCast_apply _ _ i (ix2 (0 : Fin 1) (0 : Fin 1)) (by
    rw [Shape.rowMajor_val_two]
    have h := (S_.rowMajor i).isLt
    have hn : S_.numel = 1 := by decide
    show 0 * 1 + 0 = (S_.rowMajor i).val
    omega)).trans ?_
  exact accAfter_apply m c _ 127 last_lt

/-- The kernel's result is the mean of the sum of the 128 tile totals. -/
theorem result_eq (c : Dev nD) :
    Host.divf (F := Ideal) (shapeCast S_ (total m c) shapeCasts_S1x1_S_) (constant (F := Ideal) S_ .f32 0x4B800000#32)
      = mean (∑ k ∈ Finset.range 128, tileTotal m c k) := by
  rw [scalar_eq]
  rfl

end Cert.KernelIdeal.LossValue

end
-- ==== Proof.Blocks.lean ====
/-
  Where a staged block's entries come from.

  Before the kernel runs the host re-lays the inputs: `pred` [N,2] is transposed to [2,N] and cut into
  8 stripes, [2,8,N/8]; the labels [N] are cut the same way, [8,N/8]. Row-major, so stripe `r`, column `c`
  is row `r·(N/8) + c` of the input. The pipeline's block at grid point `t` is columns
  `t·16384 … t·16384 + 16383` of every stripe. So entry (p, r, l) of the `pred` block at point `t` is
  `pred[r·2097152 + t·16384 + l, p]`, and entry (r, l) of the label block is the label of that same row.
-/
import proofs.«431369_j30743375905383_4_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.LossValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The two inputs as launched, at their literal types. -/
abbrev predArr (c : Dev nD) : S16777216x2.Idx → Elt F .f32 := m ((c : Thread nD τ).loc main_arg0)
abbrev labArr (c : Dev nD) : S16777216.Idx → Elt F .i32 := m ((c : Thread nD τ).loc main_arg1)

/-- Stripe `r`, column `cc`: a row of the inputs. -/
abbrev stripeRow (r : Fin 8) (cc : Fin 2097152) : Fin 16777216 :=
  ⟨r.val * 2097152 + cc.val, by have := r.isLt; have := cc.isLt; omega⟩

/-- Column `l` of the block at point `t`: a column of the stripes. -/
abbrev blockCol (t : Fin cfg0.N) (l : Fin 16384) : Fin 2097152 :=
  ⟨t.val * 16384 + l.val, by have hN : cfg0.N = 128 := N_0; have := t.isLt; have := l.isLt; omega⟩

/-- The re-laid `pred` the region finds: transposed, then cut into stripes. -/
theorem relaid_pred (c : Dev nD) :
    (V m c main_v2 : S2x8x2097152.Idx → Elt F .f32)
      = shapeCast S2x8x2097152 (transpose S2x16777216 [1, 0] (predArr m c) transposes_S16777216x2_S2x16777216_1_0)
          shapeCasts_S2x16777216_S2x8x2097152 := by
  show StableHlo.after hostOps0 (fun b => m (c, b)) (Proc.devRef .tc main_v2) = _
  after_results
  rfl

/-- The re-laid labels the region finds: cut into stripes. -/
theorem relaid_lab (c : Dev nD) :
    (V m c main_v0 : S8x2097152.Idx → Elt F .i32)
      = shapeCast S8x2097152 (labArr m c) shapeCasts_S16777216_S8x2097152 := by
  show StableHlo.after hostOps0 (fun b => m (c, b)) (Proc.devRef .tc main_v0) = _
  after_results
  rfl

theorem relaid_pred_apply (c : Dev nD) (p : Fin 2) (r : Fin 8) (cc : Fin 2097152) :
    (V m c main_v2 : S2x8x2097152.Idx → Elt F .f32) (ix3 p r cc) = predArr m c (ix2 (stripeRow r cc) p) := by
  rw [relaid_pred]
  refine (shapeCast_apply _ _ (ix3 p r cc) (ix2 p (stripeRow r cc)) (by
    rw [Shape.rowMajor_val_two, Shape.rowMajor_val_three]
    show p.val * 16777216 + (r.val * 2097152 + cc.val) = (p.val * 8 + r.val) * 2097152 + cc.val
    omega)).trans ?_
  exact transpose_apply [1, 0] _ _ (ix2 p (stripeRow r cc)) (ix2 (stripeRow r cc) p) (fun b => by
    match b with
    | ⟨0, _⟩ => rfl
    | ⟨1, _⟩ => rfl)

theorem relaid_lab_apply (c : Dev nD) (r : Fin 8) (cc : Fin 2097152) :
    (V m c main_v0 : S8x2097152.Idx → Elt F .i32) (ix2 r cc) = labArr m c (ix1 (stripeRow r cc)) := by
  rw [relaid_lab]
  exact shapeCast_apply _ _ (ix2 r cc) (ix1 (stripeRow r cc)) (by
    rw [Shape.rowMajor_val_one, Shape.rowMajor_val_two]
    show r.val * 2097152 + cc.val = r.val * 2097152 + cc.val
    rfl)

/-- Where the two input windows sit at point `t`: whole in every axis but the last, at block `t` there. -/
theorem pred_index : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)
theorem lab_index : ∀ t : Fin cfg0.N, win0_1.index t 0 = 0 ∧ win0_1.index t 1 = t.val :=
  (by decide +kernel : ∀ t : Fin grid0.N, win0_1.index t 0 = 0 ∧ win0_1.index t 1 = t.val)

/-- Entry (p, r, l) of the `pred` block at point `t`. -/
theorem predBlock_apply (c : Dev nD) (t : Fin cfg0.N) (p : Fin 2) (r : Fin 8) (l : Fin 16384) :
    (iblk m c 0 t : S2x8x16384.Idx → Elt F .f32) (ix3 p r l) = predArr m c (ix2 (stripeRow r (blockCol t l)) p) := by
  rw [← relaid_pred_apply]
  unfold iblk
  rw [View.read_apply]
  show V m c main_v2 _ = V m c main_v2 _
  congr 1
  funext a
  apply Fin.ext
  obtain ⟨i0, i1, i2⟩ := pred_index t
  match a with
  | ⟨0, _⟩ => show win0_0.index t 0 * 2 + 1 * p.val = p.val; rw [i0]; omega
  | ⟨1, _⟩ => show win0_0.index t 1 * 8 + 1 * r.val = r.val; rw [i1]; omega
  | ⟨2, _⟩ => show win0_0.index t 2 * 16384 + 1 * l.val = t.val * 16384 + l.val; rw [i2]; omega

/-- Entry (r, l) of the label block at point `t`. -/
theorem labBlock_apply (c : Dev nD) (t : Fin cfg0.N) (r : Fin 8) (l : Fin 16384) :
    (iblk m c 1 t : S8x16384.Idx → Elt F .i32) (ix2 r l) = labArr m c (ix1 (stripeRow r (blockCol t l))) := by
  rw [← relaid_lab_apply]
  unfold iblk
  rw [View.read_apply]
  show V m c main_v0 _ = V m c main_v0 _
  congr 1
  funext a
  apply Fin.ext
  obtain ⟨i0, i1⟩ := lab_index t
  match a with
  | ⟨0, _⟩ => show win0_1.index t 0 * 8 + 1 * r.val = r.val; rw [i0]; omega
  | ⟨1, _⟩ => show win0_1.index t 1 * 16384 + 1 * l.val = t.val * 16384 + l.val; rw [i1]; omega

end Cert.KernelIdeal.LossValue

end
-- ==== Proof.Join.lean ====
/-
  The two totals are one sum.

  Entry (r, l) of the tile at point t is row `r·2097152 + t·16384 + l` of the inputs, and on real logits
  with a non-negative label that row's loss is the same under the kernel's penalty test and under the
  reference's. The 128 × 8 × 16384 entries are all `2^24` rows, each once, so the kernel's sum of tile
  totals is the reference's sum over the rows.
-/
import proofs.«431369_j30743375905383_4_alg».proof.Proof.KernelValue
import proofs.«431369_j30743375905383_4_alg».proof.Proof.Blocks

noncomputable section

namespace Cert.KernelIdeal.LossValue

open Cert.KernelIdeal Cert.KernelIdeal.Gen Idealize.ShloMosaic Idealize.ShloMosaic.TcCoe Idealize.SL.Sem
open Idealize.ShloMosaic.ValueIdx Cert.Loss

variable (m : (ℓ : Loc nD τ sig) → Buf (Elt Ideal) ℓ)

/-- Row `n`'s loss under the reference's test, from the inputs as launched. -/
def refRow (c : Dev nD) (n : Fin 16777216) : EReal :=
  rowLoss branchTest (predArr m c (ix2 n (0 : Fin 2))) (predArr m c (ix2 n (1 : Fin 2))) (labArr m c (ix1 n))

/-- The same, indexed by a number (zero past the last row). -/
def refRowAt (c : Dev nD) (n : ℕ) : EReal := if h : n < 16777216 then refRow m c ⟨n, h⟩ else 0

/-- One tile entry is one row's loss, and the two tests agree on it. -/
theorem tileLoss_eq (c : Dev nD) (t : Fin cfg0.N) (r : Fin 8) (l : Fin 16384)
    (hreal : ∀ i : S16777216x2.Idx, ∃ x : ℝ, predArr m c i = (x : EReal))
    (hlab : ∀ j : S16777216.Idx, 0 ≤ (labArr m c j).toInt) :
    tileLoss (predBlk m c t) (labBlk m c t) r l = refRow m c (stripeRow r (blockCol t l)) := by
  have e0 : predBlk m c t (ix3 (0 : Fin 2) r l) = predArr m c (ix2 (stripeRow r (blockCol t l)) (0 : Fin 2)) :=
    predBlock_apply m c t 0 r l
  have e1 : predBlk m c t (ix3 (1 : Fin 2) r l) = predArr m c (ix2 (stripeRow r (blockCol t l)) (1 : Fin 2)) :=
    predBlock_apply m c t 1 r l
  have e2 : labBlk m c t (ix2 r l) = labArr m c (ix1 (stripeRow r (blockCol t l))) := labBlock_apply m c t r l
  unfold tileLoss refRow
  rw [e0, e1, e2]
  obtain ⟨a, ha⟩ := hreal (ix2 (stripeRow r (blockCol t l)) (0 : Fin 2))
  obtain ⟨b, hb⟩ := hreal (ix2 (stripeRow r (blockCol t l)) (1 : Fin 2))
  rw [ha, hb]
  exact rowLoss_sign_eq_branch a b _ (hlab _)

/-- The kernel's 128 tile totals add up to the reference's sum over all rows. -/
theorem totals_eq (c : Dev nD)
    (hreal : ∀ i : S16777216x2.Idx, ∃ x : ℝ, predArr m c i = (x : EReal))
    (hlab : ∀ j : S16777216.Idx, 0 ≤ (labArr m c j).toInt) :
    ∑ k ∈ Finset.range 128, tileTotal m c k = ∑ n : Fin 16777216, refRow m c n := by
  have hR : ∑ n : Fin 16777216, refRow m c n = ∑ n : Fin 16777216, refRowAt m c n.val :=
    Finset.sum_congr rfl fun n _ => by unfold refRowAt; rw [dif_pos n.isLt]
  rw [hR, sum_rows (refRowAt m c), ← Fin.sum_univ_eq_sum_range (fun k => tileTotal m c k) 128]
  refine Finset.sum_congr rfl fun t _ => ?_
  have hN : cfg0.N = 128 := N_0
  have ht : t.val < cfg0.N := by have := t.isLt; omega
  unfold tileTotal
  rw [dif_pos ht]
  refine Finset.sum_congr rfl fun r _ => Finset.sum_congr rfl fun l _ => ?_
  rw [tileLoss_eq m c ⟨t.val, ht⟩ r l hreal hlab]
  have hlt : r.val * 2097152 + t.val * 16384 + l.val < 16777216 := by
    have := r.isLt; have := t.isLt; have := l.isLt; omega
  unfold refRowAt
  rw [dif_pos hlt]
  exact congrArg (refRow m c) (Fin.ext (by
    show r.val * 2097152 + (t.val * 16384 + l.val) = r.val * 2097152 + t.val * 16384 + l.val
    omega))

end Cert.KernelIdeal.LossValue

end
-- ==== Proof.lean ====
/-
  A two-class squared-error loss with a penalty, averaged over 2^24 rows.

  Each row has two logits `p0`, `p1` and a class label. Its loss is the squared error against the one-hot
  target the label selects — `(1 − p0)² + p1²` for label 0, `p0² + (1 − p1)²` otherwise — plus 2 when the
  wrong logit is the larger one. The result is the sum of the rows' losses divided by the number of rows.

  The reference decides "the wrong logit is larger" by cases on the label: `p0 < p1` for label 0,
  `p1 < p0` otherwise. The kernel tests the sign of `(2·label − 1)·(p0 − p1)`. For real logits and a label
  that is not negative these are the same test (the factor is −1 at label 0 and at least 1 from label 1 on);
  for a negative label they are opposite, which is why the statement takes the labels non-negative, beside
  the logits finite.

  The kernel walks the rows in 128 grid points. The host first transposes the logits and cuts both inputs into
  8 stripes of 2^21 rows; a grid point takes 16384 columns of every stripe, sums the losses of that 8 × 16384
  tile over lanes and then over sublanes, and adds the tile's total to a one-word accumulator that is reset at
  the first point and copied to the output at the last. So the output is the sum over points, stripes and
  columns of the loss of row `stripe·2^21 + point·16384 + column`: every row once. Sums on the extended reals
  may be regrouped freely, and both programs end with the same division by the same word.

  The modules: the two laws with no program in sight; the precondition read element by element; the
  reference's result as the mean over rows; the kernel's tile total, the accumulator point by point and its
  closed form; where a staged block's entries come from; the output array and the host tail; and the join.
-/
import proofs.«431369_j30743375905383_4_alg».proof.Defs
import proofs.«431369_j30743375905383_4_alg».proof.Proof.Gen.Kernel
import proofs.«431369_j30743375905383_4_alg».proof.Proof.Gen.Kernel.Skeleton
import proofs.«431369_j30743375905383_4_alg».proof.Proof.Gen.Kernel.Launch
import proofs.«431369_j30743375905383_4_alg».proof.Proof.Gen.Kernel.Points
import proofs.«431369_j30743375905383_4_alg».proof.Proof.Gen.Kernel.Frame
import proofs.«431369_j30743375905383_4_alg».proof.Proof.Gen.KernelIdeal
import proofs.«431369_j30743375905383_4_alg».proof.Proof.Gen.KernelIdeal.Skeleton
import proofs.«431369_j30743375905383_4_alg».proof.Proof.Gen.KernelIdeal.Launch
import proofs.«431369_j30743375905383_4_alg».proof.Proof.Gen.KernelIdeal.Points
import proofs.«431369_j30743375905383_4_alg».proof.Proof.Gen.KernelIdeal.Frame
import proofs.«431369_j30743375905383_4_alg».proof.Proof.Gen.ReferenceIdeal
import proofs.«431369_j30743375905383_4_alg».proof.Proof.Gen.Pre_finite_inputs
import proofs.«431369_j30743375905383_4_alg».proof.Proof.Gen.ReferenceIdeal.Run
import proofs.«431369_j30743375905383_4_alg».proof.Proof.Gen.ReferenceIdeal.Read
import proofs.«431369_j30743375905383_4_alg».proof.Proof.PreRead
import proofs.«431369_j30743375905383_4_alg».proof.Proof.RefValue
import proofs.«431369_j30743375905383_4_alg».proof.Proof.Join
import Idealize.ShloMosaic.Adequacy
import Idealize.ShloMosaic.Init

noncomputable section

namespace Cert.Proof

open Idealize.ShloMosaic Idealize.SL.Sem

/-- The word-level kernel runs and leaves its inputs as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and its inputs are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text is read on the extended reals as it stands: nothing was rewritten. -/
theorem preserves : Cert.preserves_Kernel_KernelIdeal := trivial

/-- Both programs end at the mean over all rows of the row's loss under the reference's penalty test:
    the reference by its own text, the kernel because its 128 tile totals are that sum regrouped and its
    sign test agrees with the reference's on finite logits and non-negative labels. -/
theorem algebraic : Cert.algebraic_KernelIdeal_ReferenceIdeal := by
  intro m ρ m' ρ' hpre hagree
  refine ⟨fun c => Cert.Loss.mean (∑ k ∈ Finset.range 128, Cert.KernelIdeal.LossValue.tileTotal m c k), ?_, ?_⟩
  · exact (θ_run Cert.KernelIdeal.defs _ _).mono
      (fun _ h c => ⟨(h c).1.trans (Cert.KernelIdeal.LossValue.result_eq m c), (h c).2.1, (h c).2.2⟩)
      (Cert.KernelIdeal.LossValue.run m ρ)
  · refine (θ_run Cert.ReferenceIdeal.defs _ _).mono (fun _ h c => ⟨?_, (h c).2.1, (h c).2.2⟩)
      (Cert.ReferenceIdeal.Value.run (F := Ideal) m' ρ')
    obtain ⟨hreal, hlab⟩ := Cert.Loss.pre_read _ _ (hpre c)
    refine (h c).1.trans ?_
    refine (Cert.ReferenceIdeal.Read.val_main_v23_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))).trans ?_
    rw [Cert.ReferenceIdeal.LossValue.result_eq, (hagree c).1, (hagree c).2]
    show Cert.Loss.mean _ = Cert.Loss.mean (∑ k ∈ Finset.range 128, Cert.KernelIdeal.LossValue.tileTotal m c k)
    rw [Cert.KernelIdeal.LossValue.totals_eq m c hreal hlab]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
